-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x131073 : Shape := ⟨2, ![256, 131073]⟩
abbrev S256x131072 : Shape := ⟨2, ![256, 131072]⟩
abbrev S_ : Shape := ⟨0, ![]⟩

class Facts : Prop where
  bcast_S_S256x131073 : S_.BroadcastsInDim S256x131073 (![] : Fin 0 → Fin S256x131073.rank)
  reducesTo_S256x131073_S_d0_1 : S256x131073.ReducesTo [0, 1] S_
  h_S_ : 0 < S_.numel

variable [Facts]

def fn {F : FTy → Type} [FloatOps F] (main_arg0 : FVec F S256x131073 .f32) (main_arg1 : IVec S256x131072 32) : IVec S_ 1 :=
  let main_v0 : FVec F S256x131073 .f32 := Host.absf main_arg0
  let main_cst : FVec F S_ .f32 := constant S_ .f32 0x7F800000#32
  let main_v1 : FVec F S256x131073 .f32 := broadcastInDim S256x131073 ![] bcast_S_S256x131073 main_cst
  let main_v2 : IVec S256x131073 1 := cmpf .olt main_v0 main_v1
  let main_c : IVec S_ 1 := constantI S_ 1 1#1
  let main_v3 : IVec S_ 1 := (fun x v => Host.reduce IntOp.andi x v reducesTo_S256x131073_S_d0_1 h_S_) main_v2 main_c
  main_v3
-- ==== Kernel.lean ====
abbrev S256x131073 : Shape := ⟨2, ![256, 131073]⟩
abbrev S256x131072 : Shape := ⟨2, ![256, 131072]⟩
abbrev S_ : Shape := ⟨0, ![]⟩
abbrev S1 : Shape := ⟨1, ![1]⟩
abbrev S256 : Shape := ⟨1, ![256]⟩
abbrev S8x131073 : Shape := ⟨2, ![8, 131073]⟩
abbrev S8x131072 : Shape := ⟨2, ![8, 131072]⟩

abbrev nBuf : Space → Nat
  | .hbm => 21
  | .vmem => 6
  | .smem => 0
  | _ => 0

abbrev bufTy : (tb : Table) → Fin (tcTables nBuf tb) → BufTy
  | .hbm, ⟨0, _⟩ => ⟨S256x131073, .f32⟩
  | .hbm, ⟨1, _⟩ => ⟨S256x131072, .i32⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S256, .i32⟩
  | .hbm, ⟨6, _⟩ => ⟨S256x131072, .i32⟩
  | .hbm, ⟨7, _⟩ => ⟨S_, .i32⟩
  | .hbm, ⟨8, _⟩ => ⟨S_, .i32⟩
  | .hbm, ⟨9, _⟩ => ⟨S256x131072, .i32⟩
  | .hbm, ⟨10, _⟩ => ⟨S_, .i32⟩
  | .hbm, ⟨11, _⟩ => ⟨S256x131072, .i32⟩
  | .hbm, ⟨12, _⟩ => ⟨S256x131072, .i32⟩
  | .hbm, ⟨13, _⟩ => ⟨S_, .i32⟩
  | .hbm, ⟨14, _⟩ => ⟨S256x131072, .i32⟩
  | .hbm, ⟨15, _⟩ => ⟨S256x131072, .i32⟩
  | .hbm, ⟨16, _⟩ => ⟨S_, .i32⟩
  | .hbm, ⟨17, _⟩ => ⟨S256x131072, .i32⟩
  | .hbm, ⟨18, _⟩ => ⟨S256x131072, .i32⟩
  | .hbm, ⟨19, _⟩ => ⟨S256x131072, .f32⟩
  | .hbm, ⟨20, _⟩ => ⟨S256x131072, .f32⟩
  | .local _ .vmem, ⟨0, _⟩ => ⟨S8x131073, .f32⟩
  | .local _ .vmem, ⟨1, _⟩ => ⟨S8x131073, .f32⟩
  | .local _ .vmem, ⟨2, _⟩ => ⟨S8x131072, .f32⟩
  | .local _ .vmem, ⟨3, _⟩ => ⟨S8x131072, .f32⟩
  | .local _ .vmem, ⟨4, _⟩ => ⟨S8x131072, .f32⟩
  | .local _ .vmem, ⟨5, _⟩ => ⟨S8x131072, .f32⟩
  | _, _ => ⟨S256x131073, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x131073 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1 : S_.BroadcastsInDim S1 (![] : Fin 0 → Fin S1.rank)
  bcast_S_S256 : S_.BroadcastsInDim S256 (![] : Fin 0 → Fin S256.rank)
  bcast_S_S_ : S_.BroadcastsInDim S_ (![] : Fin 0 → Fin S_.rank)
  reduceWindows_S256x131072_S256x131072_w1s1p0_0_w131072s1p131071_0 : S256x131072.ReduceWindows (![1, 131072] : Fin 2 → Nat) ![1, 1] ![0, 131071] ![0, 0] S256x131072
  h_S_ : 0 < S_.numel
  bcast_S_S256x131072 : S_.BroadcastsInDim S256x131072 (![] : Fin 0 → Fin S256x131072.rank)
  inb_S8x131073_S8x131073_0_0 : ∀ a, (![0, 0] : Fin 2 → Nat) a + S8x131073.size a ≤ S8x131073.size a
  h_S8x131073 : 0 < S8x131073.numel
  slices_S8x131073_o0_0_S8x131072 : S8x131073.Slices ![0, 0] S8x131072
  slices_S8x131073_o0_1_S8x131072 : S8x131073.Slices ![0, 1] S8x131072
  inb_S8x131072_S8x131072_0_0 : ∀ a, (![0, 0] : Fin 2 → Nat) a + S8x131072.size a ≤ S8x131072.size a
  h_S8x131072 : 0 < S8x131072.numel
  shapeCasts_S8x131072_S8x131072 : S8x131072.ShapeCasts S8x131072
  scatter_S256x131072_S1_S256_0_1_1_0_wf : ScatterDims.WF S256x131072 S1 S256 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131073.size a ≤ S256x131073.size a
  hwx0_0 : ∀ i : grid0.Coords, EltTy.bits .f32 = 32 ∨ (Rect.block (s := S256x131073) S8x131073.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x131072.size a ≤ S256x131072.size a
  hwx0_1 : ∀ i : grid0.Coords, EltTy.bits .f32 = 32 ∨ (Rect.block (s := S256x131072) S8x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x131072.size a ≤ S256x131072.size a
  hwx0_2 : ∀ i : grid0.Coords, EltTy.bits .f32 = 32 ∨ (Rect.block (s := S256x131072) S8x131072.size (cc0_transform_2 i) (hinb0_2 i)).WholeWords (EltTy.packing .f32)

variable [Facts₀]

def scatter_S256x131072_S1_S256_0_1_1_0 : ScatterDims S256x131072 S1 S256 where
  updateWindowDims := [0]
  insertedWindowDims := [1]
  scatterDimsToOperandDims := [1]
  indexVectorDim := 0
  wf := scatter_S256x131072_S1_S256_0_1_1_0_wf

abbrev win0_0 : Pipeline.Window sig grid0 :=
  Pipeline.Window.ofSpec (Memref.whole main_arg0) S8x131073.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8x131072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x131073 : Shape := ⟨2, ![256, 131073]⟩
abbrev S256x131072 : Shape := ⟨2, ![256, 131072]⟩
abbrev S_ : Shape := ⟨0, ![]⟩
abbrev S1 : Shape := ⟨1, ![1]⟩
abbrev S256 : Shape := ⟨1, ![256]⟩

abbrev nBuf : Space → Nat
  | .hbm => 29
  | .vmem => 0
  | .smem => 0
  | _ => 0

abbrev bufTy : (tb : Table) → Fin (tcTables nBuf tb) → BufTy
  | .hbm, ⟨0, _⟩ => ⟨S256x131073, .f32⟩
  | .hbm, ⟨1, _⟩ => ⟨S256x131072, .i32⟩
  | .hbm, ⟨2, _⟩ => ⟨S256x131072, .f32⟩
  | .hbm, ⟨3, _⟩ => ⟨S256x131072, .f32⟩
  | .hbm, ⟨4, _⟩ => ⟨S256x131072, .f32⟩
  | .hbm, ⟨5, _⟩ => ⟨S_, .f32⟩
  | .hbm, ⟨6, _⟩ => ⟨S_, .f32⟩
  | .hbm, ⟨7, _⟩ => ⟨S256x131072, .f32⟩
  | .hbm, ⟨8, _⟩ => ⟨S256x131072, .f32⟩
  | .hbm, ⟨9, _⟩ => ⟨S256x131072, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S256, .i32⟩
  | .hbm, ⟨14, _⟩ => ⟨S256x131072, .i32⟩
  | .hbm, ⟨15, _⟩ => ⟨S_, .i32⟩
  | .hbm, ⟨16, _⟩ => ⟨S_, .i32⟩
  | .hbm, ⟨17, _⟩ => ⟨S256x131072, .i32⟩
  | .hbm, ⟨18, _⟩ => ⟨S_, .i32⟩
  | .hbm, ⟨19, _⟩ => ⟨S256x131072, .i32⟩
  | .hbm, ⟨20, _⟩ => ⟨S256x131072, .i32⟩
  | .hbm, ⟨21, _⟩ => ⟨S_, .i32⟩
  | .hbm, ⟨22, _⟩ => ⟨S256x131072, .i32⟩
  | .hbm, ⟨23, _⟩ => ⟨S256x131072, .i32⟩
  | .hbm, ⟨24, _⟩ => ⟨S_, .i32⟩
  | .hbm, ⟨25, _⟩ => ⟨S256x131072, .i32⟩
  | .hbm, ⟨26, _⟩ => ⟨S256x131072, .i32⟩
  | .hbm, ⟨27, _⟩ => ⟨S256x131072, .f32⟩
  | .hbm, ⟨28, _⟩ => ⟨S256x131072, .f32⟩
  | _, _ => ⟨S256x131073, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_call1_call0_c : Ref sig .tc := ⟨.hbm, 15, rfl⟩
abbrev main_call1_call0_v0 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  slices_S256x131073_S256x131072_0_0 : S256x131073.Slices ![0, 0] S256x131072
  slices_S256x131073_S256x131072_0_1 : S256x131073.Slices ![0, 1] S256x131072
  bcast_S_S256x131072 : S_.BroadcastsInDim S256x131072 (![] : Fin 0 → Fin S256x131072.rank)
  bcast_S_S1 : S_.BroadcastsInDim S1 (![] : Fin 0 → Fin S1.rank)
  bcast_S_S256 : S_.BroadcastsInDim S256 (![] : Fin 0 → Fin S256.rank)
  bcast_S_S_ : S_.BroadcastsInDim S_ (![] : Fin 0 → Fin S_.rank)
  reduceWindows_S256x131072_S256x131072_w1s1p0_0_w131072s1p131071_0 : S256x131072.ReduceWindows (![1, 131072] : Fin 2 → Nat) ![1, 1] ![0, 131071] ![0, 0] S256x131072
  h_S_ : 0 < S_.numel
  scatter_S256x131072_S1_S256_0_1_1_0_wf : ScatterDims.WF S256x131072 S1 S256 [0] [1] [1] 0

variable [Facts₀]

def scatter_S256x131072_S1_S256_0_1_1_0 : ScatterDims S256x131072 S1 S256 where
  updateWindowDims := [0]
  insertedWindowDims := [1]
  scatterDimsToOperandDims := [1]
  indexVectorDim := 0
  wf := scatter_S256x131072_S1_S256_0_1_1_0_wf

class Facts : Prop extends Facts₀ where

variable [Facts]
-- ==== Proof.Spec.lean ====
/-
  The sticky-sign amplitude reconstruction as ONE function of the two argument arrays, index by index.

  An energy decay curve `x` has one more sample than the output: the amplitude at `(b, t)` is the square root of
  the drop `x[b, t] - x[b, t+1]` clamped below at zero. Its sign is a parity: the flips of row `b` from
  sample 1 up to sample `t` (the flip at sample 0 is overwritten by zero) are summed by a running sum, and the
  sign is `1 - 2 * (sum & 1)` read as a float. The sign array depends on the integer input only, and both
  programs compute it by the same host operations, so it is kept as one function `signs` that is never opened;
  the float part is `amp`, stated index by index on the extended reals.
-/
import Idealize.ShloMosaic.PureOps.Ideal
import Idealize.ShloMosaic.Lib.ValueIdx
import Idealize.ShloMosaic.Lib.Pipeline.Value

noncomputable section

namespace Cert.StickySign

open Idealize.ShloMosaic Idealize.ShloMosaic.ValueIdx

/-- The decay curves: 256 rows of 131073 samples. -/
abbrev SCurve : Shape := ⟨2, ![256, 131073]⟩
/-- The flips, the signs and the result: 256 rows of 131072 samples. -/
abbrev SOut : Shape := ⟨2, ![256, 131072]⟩
abbrev SScalar : Shape := ⟨0, ![]⟩
abbrev SOne : Shape := ⟨1, ![1]⟩
abbrev SRows : Shape := ⟨1, ![256]⟩

/-- The sign array of a flip array: column 0 of the flips set to zero (a scatter of a zero row at column index 0),
    the running sum along each row (a window of the row's full width, padded low), its low bit, `1 - 2 * bit`, and
    the integer read as a float. The side conditions of the shape operations are arguments, so that each program's
    own witnesses can be passed; they are propositions, and the scatter's dimension record is data each program
    states with the same fields. -/
def signs {F : FTy → Type} [FloatOps F]
    (hOne : SScalar.BroadcastsInDim SOne (![] : Fin 0 → Fin SOne.rank))
    (hRows : SScalar.BroadcastsInDim SRows (![] : Fin 0 → Fin SRows.rank))
    (hScalar : SScalar.BroadcastsInDim SScalar (![] : Fin 0 → Fin SScalar.rank))
    (hOut : SScalar.BroadcastsInDim SOut (![] : Fin 0 → Fin SOut.rank))
    (sd : ScatterDims SOut SOne SRows)
    (hWin : SOut.ReduceWindows (![1, 131072] : Fin 2 → Nat) ![1, 1] ![0, 131071] ![0, 0] SOut)
    (hPos : 0 < SScalar.numel)
    (flips : IVec SOut 32) : FVec F SOut .f32 :=
  sitofp .f32
    (subi (broadcastInDim SOut ![] hOut (constantI SScalar 32 1#32))
      (muli (broadcastInDim SOut ![] hOut (constantI SScalar 32 2#32))
        (andi
          (Host.reduceWindow IntOp.addi ![1, 131072] ![1, 1] ![0, 131071] ![0, 0]
            (Host.scatter sd (fun _ b => b) flips
              (broadcastInDim SOne ![] hOne (constantI SScalar 32 0#32))
              (broadcastInDim SRows ![] hRows (constantI SScalar 32 0#32)))
            (broadcastInDim SScalar ![] hScalar (constantI SScalar 32 0#32)) hWin hPos)
          (broadcastInDim SOut ![] hOut (constantI SScalar 32 1#32)))))

/-- Sample `t` of row `b` of the curves, for an output index `(b, t)`. -/
abbrev here (j : SOut.Idx) : SCurve.Idx :=
  ix2 (n0 := 256) (n1 := 131073) ⟨(j 0).val, idx2_lt0 j⟩ ⟨(j 1).val, by have := idx2_lt1 j; omega⟩
/-- The next sample, `t + 1`, of the same row. -/
abbrev next (j : SOut.Idx) : SCurve.Idx :=
  ix2 (n0 := 256) (n1 := 131073) ⟨(j 0).val, idx2_lt0 j⟩ ⟨(j 1).val + 1, by have := idx2_lt1 j; omega⟩

/-- The result: the square root of the clamped drop, times the sign. -/
def amp (x : FVec Ideal SCurve .f32) (s : FVec Ideal SOut .f32) : FVec Ideal SOut .f32 :=
  fun j => Ideal.sqrt (max (x (here j) - x (next j)) 0) * s j

end Cert.StickySign

end
-- ==== Proof.KernelValue.lean ====
/-
  The kernel's result array as ONE function of the two argument arrays.

  The grid has 32 points; point `t` stages rows `8t … 8t+7` of the curves (all 131073 samples), the same rows of
  the sign array (all 131072 samples), and writes the same rows of the result. Inside a block the body reads, for
  the block index `(r, q)`, samples `q` and `q + 1` of row `r` of the curves block and entry `(r, q)` of the
  sign block; so what point `t` writes back is block `t` of `amp` of the curves and the sign array. The sign
  array the region finds is the host chain before the region applied to the flips: `signs`. The 32 row blocks
  tile the 256 rows (row `i` lies in block `i / 8`), so after the run the array is `amp` everywhere.
-/
import proofs.«405304_j60378650247707_1_alg».proof.Proof.Gen.KernelIdeal.Value
import proofs.«405304_j60378650247707_1_alg».proof.Proof.Spec
import Idealize.ShloMosaic.PureOps.Ideal.Laws

noncomputable section

namespace Cert.KernelIdeal.AmpValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.StableHlo Idealize.ShloMosaic.ValueIdx
open Cert.StickySign

variable (m : (ℓ : Loc nD τ sig) → Buf (Elt Ideal) ℓ) (ρ : Dev nD → PrngReg)

/-- The sign array of the kernel's flips, with the kernel's own witnesses of the shape conditions. -/
abbrev kerSigns (flips : IVec S256x131072 32) : FVec Ideal S256x131072 .f32 :=
  signs (F := Ideal) bcast_S_S1 bcast_S_S256 bcast_S_S_ bcast_S_S256x131072 scatter_S256x131072_S1_S256_0_1_1_0
    reduceWindows_S256x131072_S256x131072_w1s1p0_0_w131072s1p131071_0 h_S_ flips

/-- The sign array as the region finds it: the eighteen host operations before the region, composed, are `signs` of
    the flips as launched. -/
theorem V_signs (c : Dev nD) : (V m c main_v10 : S256x131072.Idx → EReal)
    = kerSigns (m ((c : Thread nD τ).loc main_arg1)) := by
  dsimp only [Gen.V]
  simp only [Gen.hostOps0, Gen.hostOps0_1, Gen.hostOps0_2, List.flatten_cons, List.flatten_nil, List.append_nil, List.cons_append,
    List.nil_append]
  after_results
  simp only [TRef.ofBuf, TRef.toBuf, cast_eq]
  rfl

/-- The curves and the flips as launched, and the two input blocks at a point, each at its literal type. -/
abbrev curves (c : Dev nD) : FVec Ideal S256x131073 .f32 := m ((c : Thread nD τ).loc main_arg0)
abbrev flipsArr (c : Dev nD) : IVec S256x131072 32 := m ((c : Thread nD τ).loc main_arg1)
abbrev curvesBlk (c : Dev nD) (t : Fin cfg0.N) : FVec Ideal S8x131073 .f32 := iblk m c 0 t
abbrev signsBlk (c : Dev nD) (t : Fin cfg0.N) : FVec Ideal S8x131072 .f32 := iblk m c 1 t

/-- The result array as a function of the arguments as launched. -/
abbrev G (c : Dev nD) : FVec Ideal S256x131072 .f32 :=
  amp (curves m c) (kerSigns (flipsArr m c))

/-- A curves block entry is the launched curves array at the entry's place in the array. -/
theorem curves_read (c : Dev nD) (t : Fin cfg0.N) (z : S8x131073.Idx) :
    curvesBlk m c t z = curves m c (((cfg0.win 0).blk t).view.emb z) := by
  show V m c main_arg0 (((cfg0.win 0).blk t).view.emb z) = _
  rw [V_main_arg0]

/-- A sign block entry is the sign array at the entry's place in the array. -/
theorem signs_read (c : Dev nD) (t : Fin cfg0.N) (z : S8x131072.Idx) :
    signsBlk m c t z = kerSigns (flipsArr m c) (((cfg0.win 1).blk t).view.emb z) := by
  show V m c main_v10 (((cfg0.win 1).blk t).view.emb z) = _
  exact congrFun (V_signs m c) _

/-- The printed index maps over the grid: all three windows are on row block `t` and column block 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) < 32 :=
  (by decide +kernel : ∀ t : Fin grid0.N, _)

/-- Every row block is some point's. -/
theorem idx_onto : ∀ q : Fin 32, ∃ t : Fin cfg0.N, win0_2.index t = ![q.val, 0] :=
  (by decide +kernel : ∀ q : Fin 32, ∃ t : Fin grid0.N, win0_2.index t = ![q.val, 0])

/-- Sample `q` of row `r` of the curves block sits in the array where the output's `(r, q)` reads its sample `here`. -/
theorem emb_here (t : Fin cfg0.N) (y : S8x131072.Idx) :
    ((cfg0.win 0).blk t).view.emb (ix2_0 y) = here (((cfg0.win 2).blk t).view.emb y) := by
  obtain ⟨e0, e1, e2, e3, e4, e5⟩ := idx_facts t
  have hy0 : (y 0).val < 8 := (y 0).isLt
  have hy1 : (y 1).val < 131072 := (y 1).isLt
  funext a; apply Fin.ext
  match a with
  | ⟨0, _⟩ => show win0_0.index t (0 : Fin 2) * 8 + 1 * (y 0).val = win0_2.index t (0 : Fin 2) * 8 + 1 * (y 0).val; omega
  | ⟨1, _⟩ => show win0_0.index t (1 : Fin 2) * 131073 + 1 * (y 1).val = win0_2.index t (1 : Fin 2) * 131072 + 1 * (y 1).val; omega

/-- Sample `q + 1` of row `r` of the curves block sits where the output's `(r, q)` reads its sample `next`. -/
theorem emb_next (t : Fin cfg0.N) (y : S8x131072.Idx) :
    ((cfg0.win 0).blk t).view.emb (ix2_1 y) = next (((cfg0.win 2).blk t).view.emb y) := by
  obtain ⟨e0, e1, e2, e3, e4, e5⟩ := idx_facts t
  have hy0 : (y 0).val < 8 := (y 0).isLt
  have hy1 : (y 1).val < 131072 := (y 1).isLt
  funext a; apply Fin.ext
  match a with
  | ⟨0, _⟩ => show win0_0.index t (0 : Fin 2) * 8 + 1 * (y 0).val = win0_2.index t (0 : Fin 2) * 8 + 1 * (y 0).val; omega
  | ⟨1, _⟩ => show win0_0.index t (1 : Fin 2) * 131073 + 1 * ((y 1).val + 1) = win0_2.index t (1 : Fin 2) * 131072 + 1 * (y 1).val + 1; omega

/-- Entry `(r, q)` of the sign block sits where the output's `(r, q)` sits. -/
theorem emb_sign (t : Fin cfg0.N) (y : S8x131072.Idx) :
    ((cfg0.win 1).blk t).view.emb (ix2_2 y) = ((cfg0.win 2).blk t).view.emb y := by
  obtain ⟨e0, e1, e2, e3, e4, e5⟩ := idx_facts t
  funext a; apply Fin.ext
  match a with
  | ⟨0, _⟩ => show win0_1.index t (0 : Fin 2) * 8 + 1 * (y 0).val = win0_2.index t (0 : Fin 2) * 8 + 1 * (y 0).val; omega
  | ⟨1, _⟩ => show win0_1.index t (1 : Fin 2) * 131072 + 1 * (y 1).val = win0_2.index t (1 : Fin 2) * 131072 + 1 * (y 1).val; omega

theorem hz : (![0, 0] : Fin 2 → Nat) = fun _ => 0 := funext fun a => by fin_cases a <;> rfl

/-- WHAT POINT `t` WRITES BACK is block `t` of `amp` of the launched curves and the sign array: the body's block is
    the generated index-by-index function of its two loads (`canon2_eq`), each load read at its place in the
    arrays; on the extended reals the body's operations are the subtraction, the maximum with zero, the square
    root and the product. -/
theorem flushed_eq (c : Dev nD) (t : Fin cfg0.N) :
    (dats m 0 c).flushed 2 t = ((cfg0.win 2).blk t).view.read (Elt Ideal) (G m c) := by
  rw [flushed2]
  funext y
  show out0_2 (iblk m c 0 t) (iblk m c 1 t) y = G m c (((cfg0.win 2).blk t).view.emb y)
  unfold out0_2
  refine (canon2_eq (View.ld (iblk m c 0 t) r0_0) (View.ld (iblk m c 1 t) r0_1) y).trans ?_
  simp only [View.ld_unit_zero (S := S8x131073) hz, View.ld_unit_zero (S := S8x131072) hz]
  show Ideal.sqrt (max (curvesBlk m c t (ix2_0 y) - curvesBlk m c t (ix2_1 y)) (Ideal.ofBits .f32 0x00000000#32)) * signsBlk m c t (ix2_2 y)
    = Ideal.sqrt (max (curves m c (here (((cfg0.win 2).blk t).view.emb y))
        - curves m c (next (((cfg0.win 2).blk t).view.emb y))) 0)
      * kerSigns (flipsArr m c) (((cfg0.win 2).blk t).view.emb y)
  rw [curves_read m c t (ix2_0 y), curves_read m c t (ix2_1 y), signs_read m c t (ix2_2 y), emb_here t y, emb_next t y,
    emb_sign t y, Ideal.ofBits_zero_f32]

/-- An index of the array is in point `t`'s block iff each coordinate is in the block's range on its axis. -/
theorem mem_blk (t : Fin cfg0.N) (i : S256x131072.Idx) :
    i ∈ ((cfg0.win 2).blk t).view.set ↔ ∀ a : Fin 2, win0_2.index t a * S8x131072.size a ≤ (i a).val ∧ (i a).val < win0_2.index t a * S8x131072.size a + S8x131072.size a := by
  show i ∈ ((View.whole main_v11).slice (win0_2.rect t)).set ↔ _
  rw [View.set_slice_whole, Rect.mem_set_unit]
  exact Iff.rfl

/-- Every index of the result array is in some point's block: row `i` is in row block `i / 8`. -/
theorem cover (i : S256x131072.Idx) :
    ∃ t : Fin cfg0.N, (cfg0.win 2).flush t = true ∧ i ∈ ((cfg0.win 2).blk t).view.set := by
  have hi0 : (i 0).val < 256 := (i 0).isLt
  have hi1 : (i 1).val < 131072 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 131072 ≤ (i 1).val ∧ (i 1).val < win0_2.index t (1 : Fin 2) * 131072 + 131072; omega

/-- THE ARRAY after the run is `amp` of the launched curves and the sign array of the launched flips. -/
theorem final (c : Dev nD) : (dats m 0 c).arrAt 2 cfg0.N = G m c :=
  (dats m 0 c).arrAt_eq_of_cover 2 (G m c) (fun t _ => flushed_eq m c t) cover

/-- The frame run re-posted: the result array at its function of the arguments, the arguments unchanged. -/
theorem run : θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.AmpValue

end
-- ==== Proof.RefValue.lean ====
/-
  The reference's run, read back: its @main is a straight line of twenty-seven host operations once the two
  outlined functions are written out at their calls (the clamp's three, the running sum's three), and every
  weakly fair execution of it ends with the result buffer at the operations' composed term of the two
  arguments. That term is `amp` of the curves and of the sign array: the two slices read samples `t` and
  `t + 1` of a row, the clamp is `max 0 d = max d 0`, the host's square root is the extended reals' square
  root, and the integer chain is the sign array `signs`, never opened.
-/
import proofs.«405304_j60378650247707_1_alg».proof.Proof.Gen.ReferenceIdeal
import proofs.«405304_j60378650247707_1_alg».proof.Proof.Spec
import Idealize.ShloMosaic.Lib.StableHlo.Run
import Idealize.ShloMosaic.PureOps.Ideal.Laws

noncomputable section

namespace Cert.ReferenceIdeal.AmpValue

open Cert.ReferenceIdeal Cert.ReferenceIdeal.Gen Idealize.ShloMosaic Idealize.ShloMosaic.TcCoe Idealize.SL.Sem
  Idealize.ShloMosaic.StableHlo Idealize.ShloMosaic.ValueIdx
open Cert.StickySign

variable {F : FTy → Type} [FloatOps F]

/-- @main's operations in order, the two calls written out over their buffer records: the clamp `clip(d, 0)` is a
    copy of the scalar, its broadcast and the maximum; the running sum is a zero, its copy and the window sum. -/
abbrev ops : List (HloOp τ sig (Elt F)) :=
  [ unary main_arg0 main_v0 ((extractStridedSlice S256x131072 ![0, 0] · slices_S256x131073_S256x131072_0_0) : (⟨S256x131073, .f32⟩ : BufTy).Contents (Elt F) → (⟨S256x131072, .f32⟩ : BufTy).Contents (Elt F)),
    unary main_arg0 main_v1 ((extractStridedSlice S256x131072 ![0, 1] · slices_S256x131073_S256x131072_0_1) : (⟨S256x131073, .f32⟩ : BufTy).Contents (Elt F) → (⟨S256x131072, .f32⟩ : BufTy).Contents (Elt F)),
    binary main_v0 main_v1 main_v2 (subf : (⟨S256x131072, .f32⟩ : BufTy).Contents (Elt F) → (⟨S256x131072, .f32⟩ : BufTy).Contents (Elt F) → (⟨S256x131072, .f32⟩ : BufTy).Contents (Elt F)),
    nullary main_cst (constant S_ .f32 0x00000000#32),
    TRef.unary (.of main_cst) main_call0.v0 id,
    TRef.unary main_call0.v0 main_call0.v1 (broadcastInDim S256x131072 ![] bcast_S_S256x131072),
    TRef.binary main_call0.v1 (.of main_v2) main_call0.v2 maximumf,
    unary main_v3 main_v4 (Host.sqrt : (⟨S256x131072, .f32⟩ : BufTy).Contents (Elt F) → (⟨S256x131072, .f32⟩ : BufTy).Contents (Elt F)),
    nullary main_c (constantI S_ 32 0#32),
    unary main_c main_v5 (broadcastInDim S1 ![] bcast_S_S1 : (⟨S_, .i32⟩ : BufTy).Contents (Elt F) → (⟨S1, .i32⟩ : BufTy).Contents (Elt F)),
    nullary main_c_0 (constantI S_ 32 0#32),
    unary main_c_0 main_v6 (broadcastInDim S256 ![] bcast_S_S256 : (⟨S_, .i32⟩ : BufTy).Contents (Elt F) → (⟨S256, .i32⟩ : BufTy).Contents (Elt F)),
    ternary main_arg1 main_v5 main_v6 main_v7 ((fun x i u => Host.scatter scatter_S256x131072_S1_S256_0_1_1_0 (fun _ b => b) x i u) : (⟨S256x131072, .i32⟩ : BufTy).Contents (Elt F) → (⟨S1, .i32⟩ : BufTy).Contents (Elt F) → (⟨S256, .i32⟩ : BufTy).Contents (Elt F) → (⟨S256x131072, .i32⟩ : BufTy).Contents (Elt F)),
    TRef.nullary main_call1.call0.c (constantI S_ 32 0#32),
    TRef.unary main_call1.call0.c main_call1.call0.v0 (broadcastInDim S_ ![] bcast_S_S_),
    TRef.binary (.of main_v7) main_call1.call0.v0 main_call1.call0.v1 (fun x v => Host.reduceWindow IntOp.addi ![1, 131072] ![1, 1] ![0, 131071] ![0, 0] x v reduceWindows_S256x131072_S256x131072_w1s1p0_0_w131072s1p131071_0 h_S_),
    nullary main_c_1 (constantI S_ 32 1#32),
    unary main_c_1 main_v9 (broadcastInDim S256x131072 ![] bcast_S_S256x131072 : (⟨S_, .i32⟩ : BufTy).Contents (Elt F) → (⟨S256x131072, .i32⟩ : BufTy).Contents (Elt F)),
    binary main_v8 main_v9 main_v10 (andi : (⟨S256x131072, .i32⟩ : BufTy).Contents (Elt F) → (⟨S256x131072, .i32⟩ : BufTy).Contents (Elt F) → (⟨S256x131072, .i32⟩ : BufTy).Contents (Elt F)),
    nullary main_c_2 (constantI S_ 32 2#32),
    unary main_c_2 main_v11 (broadcastInDim S256x131072 ![] bcast_S_S256x131072 : (⟨S_, .i32⟩ : BufTy).Contents (Elt F) → (⟨S256x131072, .i32⟩ : BufTy).Contents (Elt F)),
    binary main_v11 main_v10 main_v12 (muli : (⟨S256x131072, .i32⟩ : BufTy).Contents (Elt F) → (⟨S256x131072, .i32⟩ : BufTy).Contents (Elt F) → (⟨S256x131072, .i32⟩ : BufTy).Contents (Elt F)),
    nullary main_c_3 (constantI S_ 32 1#32),
    unary main_c_3 main_v13 (broadcastInDim S256x131072 ![] bcast_S_S256x131072 : (⟨S_, .i32⟩ : BufTy).Contents (Elt F) → (⟨S256x131072, .i32⟩ : BufTy).Contents (Elt F)),
    binary main_v13 main_v12 main_v14 (subi : (⟨S256x131072, .i32⟩ : BufTy).Contents (Elt F) → (⟨S256x131072, .i32⟩ : BufTy).Contents (Elt F) → (⟨S256x131072, .i32⟩ : BufTy).Contents (Elt F)),
    unary main_v14 main_v15 (sitofp (F := F) .f32 : (⟨S256x131072, .i32⟩ : BufTy).Contents (Elt F) → (⟨S256x131072, .f32⟩ : BufTy).Contents (Elt F)),
    binary main_v4 main_v15 main_v16 (mulf : (⟨S256x131072, .f32⟩ : BufTy).Contents (Elt F) → (⟨S256x131072, .f32⟩ : BufTy).Contents (Elt F) → (⟨S256x131072, .f32⟩ : BufTy).Contents (Elt F)) ]

set_option maxRecDepth 1024 in
/-- @main is that straight line: the functions' definitions unfolded at their calls, the sequencing reassociated. -/
theorem main_eq (c : Dev nD) : main (F := F) c = seq ops := by
  simp only [main, fn_clip.body, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., nullary_bufs_sub .., unary_bufs_sub .., unary_bufs_sub ..,
    binary_bufs_sub .., unary_bufs_sub .., nullary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., unary_bufs_sub .., binary_bufs_sub ..⟩

/-- The sign array of the reference's flips, with the reference's own witnesses of the shape conditions. -/
abbrev refSigns (flips : IVec S256x131072 32) : FVec F S256x131072 .f32 :=
  signs (F := F) bcast_S_S1 bcast_S_S256 bcast_S_S_ bcast_S_S256x131072 scatter_S256x131072_S1_S256_0_1_1_0
    reduceWindows_S256x131072_S256x131072_w1s1p0_0_w131072s1p131071_0 h_S_ flips

/-- The operations' composed term at the result buffer: the product of the square root of the clamped difference
    of the two slices with the sign array. -/
def result (x : FVec F S256x131073 .f32) (flips : IVec S256x131072 32) : FVec F S256x131072 .f32 :=
  mulf (Host.sqrt (maximumf (broadcastInDim S256x131072 ![] bcast_S_S256x131072 (constant S_ .f32 0x00000000#32))
      (subf (extractStridedSlice S256x131072 ![0, 0] x slices_S256x131073_S256x131072_0_0)
        (extractStridedSlice S256x131072 ![0, 1] x slices_S256x131073_S256x131072_0_1))))
    (refSigns flips)

/-- On every device, from any memory with zero counters: every weakly fair execution of @main terminates with the
    result buffer at `result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (by after_results; simp only [TRef.ofBuf, TRef.toBuf, cast_eq]; rfl),
      (h c main_arg0).trans (by after_results),
      (h c main_arg1).trans (by after_results)⟩)
    (run_seq scopedRefs_eq scopedSems_eq defs main (fun _ => ops) main_eq (fun _ => ops_sub) m ρ)

/-- On the extended reals the composed term is `amp` of the curves and the sign array: slice 0 at `(b, t)` is sample
    `t` of row `b`, slice 1 is sample `t + 1`, the clamp's `max 0 d` is `max d 0`, and the host's square root is
    the extended reals' square root. -/
theorem result_eq (x : FVec Ideal S256x131073 .f32) (flips : IVec S256x131072 32) :
    result (F := Ideal) x flips = amp x (refSigns (F := Ideal) flips) := by
  funext j
  have hj0 : (j 0).val < 256 := (j 0).isLt
  have hj1 : (j 1).val < 131072 := (j 1).isLt
  have h0 : extractStridedSlice S256x131072 ![0, 0] x slices_S256x131073_S256x131072_0_0 j = x (here j) :=
    extractStridedSlice_apply ![0, 0] x _ j (here j) (fun a => match a with
      | ⟨0, _⟩ => by show (j 0).val = 0 + (j 0).val; omega
      | ⟨1, _⟩ => by show (j 1).val = 0 + (j 1).val; omega)
  have h1 : extractStridedSlice S256x131072 ![0, 1] x slices_S256x131073_S256x131072_0_1 j = x (next j) :=
    extractStridedSlice_apply ![0, 1] x _ j (next j) (fun a => match a with
      | ⟨0, _⟩ => by show (j 0).val = 0 + (j 0).val; omega
      | ⟨1, _⟩ => by show (j 1).val + 1 = 1 + (j 1).val; omega)
  show Ideal.sqrt (max (Ideal.ofBits .f32 0x00000000#32)
        (extractStridedSlice S256x131072 ![0, 0] x slices_S256x131073_S256x131072_0_0 j
          - extractStridedSlice S256x131072 ![0, 1] x slices_S256x131073_S256x131072_0_1 j))
      * refSigns (F := Ideal) flips j
    = Ideal.sqrt (max (x (here j) - x (next j)) 0) * refSigns (F := Ideal) flips j
  rw [h0, h1, Ideal.ofBits_zero_f32, max_comm]

end Cert.ReferenceIdeal.AmpValue

end
-- ==== Proof.lean ====
/-
  The kernel reconstructs a signed amplitude from an energy decay curve: at `(b, t)` the square root of the drop
  `x[b, t] - x[b, t+1]` clamped at zero, times a sign that is the parity of the flips of row `b` up to `t`. The
  sign array is computed on the host by the same eighteen integer operations in the kernel's program and in the
  reference, so both results are `amp x (signs flips)` for one function `signs` that is never opened; the float
  part differs only in how it is laid out (32 row blocks through a pipeline against two whole-array slices) and
  in the order of the clamp's operands, and `max` is commutative on the extended reals. Nothing here needs the
  inputs finite. No operation was rewritten by the idealization, so `preserves` is `True`.
-/
import proofs.«405304_j60378650247707_1_alg».proof.Defs
import proofs.«405304_j60378650247707_1_alg».proof.Proof.Gen.Kernel
import proofs.«405304_j60378650247707_1_alg».proof.Proof.Gen.Kernel.Frame
import proofs.«405304_j60378650247707_1_alg».proof.Proof.Gen.KernelIdeal
import proofs.«405304_j60378650247707_1_alg».proof.Proof.Gen.KernelIdeal.Frame
import proofs.«405304_j60378650247707_1_alg».proof.Proof.Gen.ReferenceIdeal
import proofs.«405304_j60378650247707_1_alg».proof.Proof.Gen.Pre_finite_inputs
import proofs.«405304_j60378650247707_1_alg».proof.Proof.KernelValue
import proofs.«405304_j60378650247707_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.AmpValue.run (F := Ideal) m ρ)

/-- The two programs' sign arrays are one function of the flips: the same operations, each program's own witnesses
    of the same shape conditions. -/
theorem signs_agree (flips : IVec Cert.StickySign.SOut 32) :
    Cert.ReferenceIdeal.AmpValue.refSigns (F := Ideal) flips = Cert.KernelIdeal.AmpValue.kerSigns flips := rfl

/-- From memories that agree on the arguments both programs end with the result at `amp` of the curves and the sign
    array of the flips. -/
theorem algebraic : Cert.algebraic_KernelIdeal_ReferenceIdeal := by
  intro m ρ m' ρ' _ hagree
  refine ⟨fun c => Cert.KernelIdeal.AmpValue.G m c, Cert.KernelIdeal.AmpValue.run m ρ, ?_⟩
  refine (θ_run Cert.ReferenceIdeal.defs _ _).mono (fun _ h c => ⟨(h c).1.trans ?_, (h c).2⟩)
    (Cert.ReferenceIdeal.AmpValue.run (F := Ideal) m' ρ')
  rw [(hagree c).1, (hagree c).2, Cert.ReferenceIdeal.AmpValue.result_eq, signs_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
